-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x10 : Shape := ⟨2, ![4000000, 10]⟩
abbrev S_ : Shape := ⟨0, ![]⟩

class Facts : Prop where
  bcast_S_S4000000x10 : S_.BroadcastsInDim S4000000x10 (![] : Fin 0 → Fin S4000000x10.rank)
  reducesTo_S4000000x10_S_d0_1 : S4000000x10.ReducesTo [0, 1] S_
  h_S_ : 0 < S_.numel

variable [Facts]

def fn {F : FTy → Type} [FloatOps F] (main_arg0 : FVec F S4000000x10 .f32) (main_arg1 : FVec F S4000000x10 .f32) : IVec S_ 1 :=
  let main_v0 : FVec F S4000000x10 .f32 := Host.absf main_arg0
  let main_cst : FVec F S_ .f32 := constant S_ .f32 0x7F800000#32
  let main_v1 : FVec F S4000000x10 .f32 := broadcastInDim S4000000x10 ![] bcast_S_S4000000x10 main_cst
  let main_v2 : IVec S4000000x10 1 := cmpf .olt main_v0 main_v1
  let main_c : IVec S_ 1 := constantI S_ 1 1#1
  let main_v3 : IVec S_ 1 := (fun x v => Host.reduce IntOp.andi x v reducesTo_S4000000x10_S_d0_1 h_S_) main_v2 main_c
  let main_v4 : FVec F S4000000x10 .f32 := Host.absf main_arg1
  let main_cst_0 : FVec F S_ .f32 := constant S_ .f32 0x7F800000#32
  let main_v5 : FVec F S4000000x10 .f32 := broadcastInDim S4000000x10 ![] bcast_S_S4000000x10 main_cst_0
  let main_v6 : IVec S4000000x10 1 := cmpf .olt main_v4 main_v5
  let main_c_1 : IVec S_ 1 := constantI S_ 1 1#1
  let main_v7 : IVec S_ 1 := (fun x v => Host.reduce IntOp.andi x v reducesTo_S4000000x10_S_d0_1 h_S_) main_v6 main_c_1
  let main_v8 : IVec S_ 1 := andi main_v3 main_v7
  main_v8
-- ==== Kernel.lean ====
abbrev S4000000x10 : Shape := ⟨2, ![4000000, 10]⟩
abbrev S1x1 : Shape := ⟨2, ![1, 1]⟩
abbrev S10000x10 : Shape := ⟨2, ![10000, 10]⟩
abbrev S10000 : Shape := ⟨1, ![10000]⟩
abbrev S10000x1 : Shape := ⟨2, ![10000, 1]⟩
abbrev S1 : Shape := ⟨1, ![1]⟩

abbrev nBuf : Space → Nat
  | .hbm => 4
  | .vmem => 5
  | .smem => 0
  | _ => 0

abbrev bufTy : (tb : Table) → Fin (tcTables nBuf tb) → BufTy
  | .hbm, ⟨0, _⟩ => ⟨S4000000x10, .f32⟩
  | .hbm, ⟨1, _⟩ => ⟨S4000000x10, .f32⟩
  | .hbm, ⟨2, _⟩ => ⟨S1x1, .f32⟩
  | .hbm, ⟨3, _⟩ => ⟨S1, .f32⟩
  | .local _ .vmem, ⟨0, _⟩ => ⟨S10000x10, .f32⟩
  | .local _ .vmem, ⟨1, _⟩ => ⟨S10000x10, .f32⟩
  | .local _ .vmem, ⟨2, _⟩ => ⟨S10000x10, .f32⟩
  | .local _ .vmem, ⟨3, _⟩ => ⟨S10000x10, .f32⟩
  | .local _ .vmem, ⟨4, _⟩ => ⟨S1x1, .f32⟩
  | _, _ => ⟨S4000000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S10000x10_S10000x10_0_0 : ∀ a, (![0, 0] : Fin 2 → Nat) a + S10000x10.size a ≤ S10000x10.size a
  h_S10000x10 : 0 < S10000x10.numel
  reduces_S10000x10_S10000 : S10000x10.Reduces [1] S10000
  shapeCasts_S10000_S10000x1 : S10000.ShapeCasts S10000x1
  reduces_S10000x1_S1 : S10000x1.Reduces [0] S1
  shapeCasts_S1_S1x1 : S1.ShapeCasts S1x1
  shapeCasts_S1x1_S1x1 : S1x1.ShapeCasts S1x1
  shapeCasts_S1x1_S1 : S1x1.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x10.size a ≤ S4000000x10.size a
  hwx0_0 : ∀ i : grid0.Coords, EltTy.bits .f32 = 32 ∨ (Rect.block (s := S4000000x10) S10000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x10.size a ≤ S4000000x10.size a
  hwx0_1 : ∀ i : grid0.Coords, EltTy.bits .f32 = 32 ∨ (Rect.block (s := S4000000x10) S10000x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S10000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x10 : Shape := ⟨2, ![4000000, 10]⟩
abbrev S_ : Shape := ⟨0, ![]⟩
abbrev S1 : Shape := ⟨1, ![1]⟩

abbrev nBuf : Space → Nat
  | .hbm => 9
  | .vmem => 0
  | .smem => 0
  | _ => 0

abbrev bufTy : (tb : Table) → Fin (tcTables nBuf tb) → BufTy
  | .hbm, ⟨0, _⟩ => ⟨S4000000x10, .f32⟩
  | .hbm, ⟨1, _⟩ => ⟨S4000000x10, .f32⟩
  | .hbm, ⟨2, _⟩ => ⟨S4000000x10, .f32⟩
  | .hbm, ⟨3, _⟩ => ⟨S4000000x10, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1, .f32⟩
  | _, _ => ⟨S4000000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S4000000x10_S_d0_1 : S4000000x10.ReducesTo [0, 1] S_
  h_S_ : 0 < S_.numel
  shapeCasts_S_S1 : S_.ShapeCasts S1

variable [Facts₀]

class Facts : Prop extends Facts₀ where

variable [Facts]
-- ==== Proof.KernelPoint.lean ====
/-
  What one grid point of the kernel leaves in the one-entry accumulator.

  The kernel's grid has 400 points; point `t` sees block `t` (10 000 rows, 10 columns) of each table and a one-entry
  buffer carried from point to point.  At a point the body forms, from the two blocks `x₀`, `x₁`,

      blockSq x₀ x₁ = Σ_r Σ_c (x₀ (r, c) − x₁ (r, c)) · (x₀ (r, c) − x₁ (r, c))

  (the sum along each row, then the sum of the row sums down the column) and adds it to the buffer's entry.  The first
  point stores zero in the buffer before that, and the last point multiplies the buffer by one half afterwards.  So,
  with `a` the entry the buffer held when the point began,

      first point    leaves  0 + blockSq x₀ x₁
      middle points  leave   a + blockSq x₀ x₁
      last point     leaves  (a + blockSq x₀ x₁) · ½ .

  Each of the three is first read off the stores the body makes (for any number type), then evaluated over the
  extended reals, where a sum over one axis of a block is the finite sum over that axis's coordinates.
-/
import proofs.«149610_j28741921145432_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

open scoped BigOperators
open Idealize.ShloMosaic Idealize.ShloMosaic.TcCoe Idealize.SL.Sem

namespace Cert.KernelIdeal.Point

open Cert.KernelIdeal Cert.KernelIdeal.Gen Idealize.ShloMosaic.ValueIdx

/-! ## The stores of each case, for any number type -/

section Stores
variable {F : FTy → Type} [FloatOps F]

/-- Offsets `(0, 0)` are the zero offsets. -/
theorem zero_offsets : (![0, 0] : Fin 2 → Nat) = fun _ => 0 := funext fun a => by fin_cases a <;> rfl

/-- At the first point the buffer ends holding the update formed over the zero just stored. -/
theorem first_stores (c : Dev nD) (i : grid0.Coords) (a1 : Memref sig .tc .vmem S10000x10 .f32) (h1 : a1.IsWhole)
    (a2 : Memref sig .tc .vmem S10000x10 .f32) (h2 : a2.IsWhole) (a3 : Memref sig .tc .vmem S1x1 .f32) (h3 : a3.IsWhole)
    (hc0 : cond0_0 i) (hc1 : ¬cond0_1 i) (x0 x1 : Vec F S10000x10 .f32) :
    out0_A_2 c i a1 h1 a2 h2 a3 h3 hc0 hc1 x0 x1 = k0_pay2 x0 x1 (k0_pay1 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) zero_offsets]
  simp only [View.readAt_eq_ld, h1.read_unread, h2.read_unread, View.ld_unit_zero (S := S10000x10) zero_offsets,
    View.ld_unit_zero (S := S1x1) zero_offsets, View.readCov_unit_zero (S := S1x1) _ zero_offsets]

/-- At a middle point the buffer ends holding the update formed over what it held. -/
theorem middle_stores (c : Dev nD) (i : grid0.Coords) (a1 : Memref sig .tc .vmem S10000x10 .f32) (h1 : a1.IsWhole)
    (a2 : Memref sig .tc .vmem S10000x10 .f32) (h2 : a2.IsWhole) (a3 : Memref sig .tc .vmem S1x1 .f32) (h3 : a3.IsWhole)
    (hc0 : ¬cond0_0 i) (hc1 : ¬cond0_1 i) (x0 x1 : Vec F S10000x10 .f32) (xo : Vec F S1x1 .f32) :
    out0_B_2 c i a1 h1 a2 h2 a3 h3 hc0 hc1 x0 x1 xo = k0_pay2 x0 x1 xo := by
  unfold out0_B_2
  rw [View.read_writes_eq_canon _ _ _ (cover0_B_2 c i a1 h1 a2 h2 a3 h3 hc0 hc1 x0 x1 xo)]
  unfold kernelRun0_B
  dsimp only
  sl_unfold_words
  rw [View.canon_unit_zero zero_offsets]
  simp only [View.readAt_eq_ld, h1.read_unread, h2.read_unread, h3.read_unread,
    View.ld_unit_zero (S := S10000x10) zero_offsets, View.ld_unit_zero (S := S1x1) zero_offsets]

/-- At the last point the buffer ends holding the scaling of the update formed over what it held. -/
theorem last_stores (c : Dev nD) (i : grid0.Coords) (a1 : Memref sig .tc .vmem S10000x10 .f32) (h1 : a1.IsWhole)
    (a2 : Memref sig .tc .vmem S10000x10 .f32) (h2 : a2.IsWhole) (a3 : Memref sig .tc .vmem S1x1 .f32) (h3 : a3.IsWhole)
    (hc0 : ¬cond0_0 i) (hc1 : cond0_1 i) (x0 x1 : Vec F S10000x10 .f32) (xo : Vec F S1x1 .f32) :
    out0_C_2 c i a1 h1 a2 h2 a3 h3 hc0 hc1 x0 x1 xo = k0_pay3 (k0_pay2 x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1) zero_offsets]
  simp only [View.readAt_eq_ld, h1.read_unread, h2.read_unread, h3.read_unread,
    View.ld_unit_zero (S := S10000x10) zero_offsets, View.ld_unit_zero (S := S1x1) zero_offsets,
    View.readCov_unit_zero (S := S1x1) _ zero_offsets]

end Stores

/-! ## The three values over the extended reals -/

/-- The sum over a block of the squared differences of its two operands. -/
def blockSq (x0 x1 : Vec Ideal S10000x10 .f32) : EReal :=
  ∑ r : Fin 10000, ∑ c : Fin 10, (x0 (ix2 r c) - x1 (ix2 r c)) * (x0 (ix2 r c) - x1 (ix2 r c))

/-- Summing a block along its rows: the index over row `r` with column `k` put back is `(r, k)`. -/
theorem row_index (r : Fin 10000) (k : Fin 10) :
    Shape.Reduces.lift (s := S10000x10) (t := S10000) (a := 1) reduces_S10000x10_S10000 (ix1 r) k = ix2 r k := by
  funext a
  match a with
  | ⟨0, _⟩ => rfl
  | ⟨1, _⟩ => rfl

/-- Summing a one-column block down its column: the index over `j` with row `r` put back is `(r, j₀)`. -/
theorem column_index (j : S1.Idx) (r : Fin 10000) :
    Shape.Reduces.lift (s := S10000x1) (t := S1) (a := 0) reduces_S10000x1_S1 j r = ix2 r (j 0) := by
  funext a
  match a with
  | ⟨0, _⟩ => rfl
  | ⟨1, _⟩ => rfl

/-- The update: the buffer's entry plus the block's sum of squared differences. -/
theorem update_apply (x0 x1 : Vec Ideal S10000x10 .f32) (v : Vec Ideal S1x1 .f32) (j : S1x1.Idx) :
    k0_pay2 (F := Ideal) x0 x1 v j = v j + blockSq x0 x1 := by
  unfold k0_pay2
  show (shapeCast S1x1 v shapeCasts_S1x1_S1x1) j + _ = _
  congr 1
  · exact congrFun (shapeCast_self v _) j
  · refine (shapeCast_apply _ _ j (ix1 0) ?_).trans ?_
    · rw [Shape.rowMajor_val_one, Shape.rowMajor_val_two]
      have h0 := (j 0).isLt; have h1 := (j 1).isLt
      simp at h0 h1 ⊢
      omega
    · refine (Ideal.multiReduction_add_single _ _ _ _ _ (ix1 0)).trans ?_
      unfold blockSq
      refine Finset.sum_congr rfl fun (r : Fin 10000) _ => ?_
      have e : Shape.Reduces.lift (s := S10000x1) (t := S1) (a := 0) reduces_S10000x1_S1 (ix1 0) r = ix2 r 0 :=
        column_index _ r
      rw [e]
      refine (shapeCast_apply _ _ _ (ix1 r) ?_).trans ?_
      · rw [Shape.rowMajor_val_one, Shape.rowMajor_val_two]
        simp
      · refine (Ideal.multiReduction_add_single _ _ _ _ _ (ix1 r)).trans ?_
        refine Finset.sum_congr rfl fun (k : Fin 10) _ => ?_
        have e' : Shape.Reduces.lift (s := S10000x10) (t := S10000) (a := 1) reduces_S10000x10_S10000 (ix1 r) k
            = ix2 r k := row_index r k
        rw [e']
        rfl

/-- The reset stores the number zero. -/
theorem reset_apply (j : S1x1.Idx) : k0_pay1 (F := Ideal) j = 0 := by
  unfold k0_pay1
  show Ideal.ofBits .f32 0x00000000#32 = 0
  exact Ideal.ofBits_zero_f32

/-- The scaling multiplies the buffer's entry by one half (the word `0x3F000000` read as a number). -/
theorem scale_apply (v : Vec Ideal S1x1 .f32) (j : S1x1.Idx) :
    k0_pay3 (F := Ideal) v j = v j * Ideal.ofBits .f32 0x3F000000#32 := by
  unfold k0_pay3
  show (shapeCast S1x1 v shapeCasts_S1x1_S1x1) j * _ = _
  congr 1
  exact congrFun (shapeCast_self v _) j

/-- The first point leaves `0 + blockSq`. -/
theorem first_value (c : Dev nD) (i : grid0.Coords) (a1 : Memref sig .tc .vmem S10000x10 .f32) (h1 : a1.IsWhole)
    (a2 : Memref sig .tc .vmem S10000x10 .f32) (h2 : a2.IsWhole) (a3 : Memref sig .tc .vmem S1x1 .f32) (h3 : a3.IsWhole)
    (hc0 : cond0_0 i) (hc1 : ¬cond0_1 i) (x0 x1 : Vec Ideal S10000x10 .f32) :
    out0_A_2 (F := Ideal) c i a1 h1 a2 h2 a3 h3 hc0 hc1 x0 x1 = fun _ => 0 + blockSq x0 x1 := by
  rw [first_stores]
  funext j
  rw [update_apply, reset_apply]

/-- A middle point leaves the entry it found plus `blockSq`. -/
theorem middle_value (c : Dev nD) (i : grid0.Coords) (a1 : Memref sig .tc .vmem S10000x10 .f32) (h1 : a1.IsWhole)
    (a2 : Memref sig .tc .vmem S10000x10 .f32) (h2 : a2.IsWhole) (a3 : Memref sig .tc .vmem S1x1 .f32) (h3 : a3.IsWhole)
    (hc0 : ¬cond0_0 i) (hc1 : ¬cond0_1 i) (x0 x1 : Vec Ideal S10000x10 .f32) (xo : Vec Ideal S1x1 .f32) :
    out0_B_2 (F := Ideal) c i a1 h1 a2 h2 a3 h3 hc0 hc1 x0 x1 xo = fun j => xo j + blockSq x0 x1 := by
  rw [middle_stores]
  funext j
  rw [update_apply]

/-- The last point leaves the entry it found plus `blockSq`, times one half. -/
theorem last_value (c : Dev nD) (i : grid0.Coords) (a1 : Memref sig .tc .vmem S10000x10 .f32) (h1 : a1.IsWhole)
    (a2 : Memref sig .tc .vmem S10000x10 .f32) (h2 : a2.IsWhole) (a3 : Memref sig .tc .vmem S1x1 .f32) (h3 : a3.IsWhole)
    (hc0 : ¬cond0_0 i) (hc1 : cond0_1 i) (x0 x1 : Vec Ideal S10000x10 .f32) (xo : Vec Ideal S1x1 .f32) :
    out0_C_2 (F := Ideal) c i a1 h1 a2 h2 a3 h3 hc0 hc1 x0 x1 xo
      = fun j => (xo j + blockSq x0 x1) * Ideal.ofBits .f32 0x3F000000#32 := by
  rw [last_stores]
  funext j
  rw [scale_apply, update_apply]

end Cert.KernelIdeal.Point

end
-- ==== Proof.LibBlockSum.lean ====
/-
  A sum over n · b rows, taken block by block.

  Let `N = n · b` and let `f` assign to each of the rows `0, …, N − 1` an element of a commutative additive monoid
  (the extended reals are one; nothing finite is asked of the values).  Cut the rows into `n` consecutive blocks of
  `b`: block `t` holds the rows `b·t, …, b·t + b − 1`.  Then

    • the sum over all rows is the sum over the blocks of each block's sum;
    • the partial sums `P m = Σ_{k < m} f k` satisfy `P 0 = 0`, `P (b·(t+1)) = P (b·t) + (block t's sum)` and
      `P (b·n) = Σ_k f k`;
    • so a running total that starts at zero and adds one block's sum at each of the steps `t = 0, …, n − 1` holds
      `P (b·t)` before step `t` and the whole sum after the last step.

  Everything is stated over `Fin N` with the equation `n · b = N` as a hypothesis, so that the rows may be counted by a
  literal (`N = 50000` with `n = 25`, `b = 2000`) without a change of index type.
-/
import Mathlib.Algebra.BigOperators.Fin
import Mathlib.Algebra.BigOperators.Group.Finset.Basic
import Mathlib.Data.Fintype.Basic
import Mathlib.Data.EReal.Basic
import Mathlib.Tactic.Ring
import Mathlib.Tactic.NormNum

namespace Cert.LibBlockSum

open scoped BigOperators

variable {M : Type*} [AddCommMonoid M] {N : ℕ}

/-! ## Partial sums over the rows below a bound -/

/-- The sum of `f` over the rows whose number is below `m`. -/
def partialSum (f : Fin N → M) (m : ℕ) : M :=
  ∑ k ∈ Finset.univ.filter (fun k : Fin N => k.val < m), f k

/-- No row lies below `0`: the empty partial sum is zero. -/
theorem partialSum_zero (f : Fin N → M) : partialSum f 0 = 0 := by
  unfold partialSum
  rw [Finset.filter_false_of_mem (fun k _ => Nat.not_lt_zero k.val), Finset.sum_empty]

/-- Raising the bound from `m` to `m + 1` adds row `m`. -/
theorem partialSum_succ (f : Fin N → M) {m : ℕ} (h : m < N) :
    partialSum f (m + 1) = partialSum f m + f ⟨m, h⟩ := by
  unfold partialSum
  have hins : Finset.univ.filter (fun k : Fin N => k.val < m + 1)
      = insert (⟨m, h⟩ : Fin N) (Finset.univ.filter (fun k : Fin N => k.val < m)) := by
    ext k
    simp only [Finset.mem_filter, Finset.mem_univ, true_and, Finset.mem_insert, Fin.ext_iff]
    omega
  have hnot : (⟨m, h⟩ : Fin N) ∉ Finset.univ.filter (fun k : Fin N => k.val < m) := by
    simp only [Finset.mem_filter, Finset.mem_univ, true_and]
    omega
  rw [hins, Finset.sum_insert hnot, add_comm]

/-- Raising the bound from `m` to `m + b` adds the `b` rows `m, …, m + b − 1`. -/
theorem partialSum_add (f : Fin N → M) (m b : ℕ) (h : m + b ≤ N) :
    partialSum f (m + b) = partialSum f m + ∑ r : Fin b, f ⟨m + r.val, lt_of_lt_of_le (by omega) h⟩ := by
  induction b with
  | zero => simp
  | succ b ih =>
    have hb : m + b ≤ N := by omega
    have hlt : m + b < N := by omega
    show partialSum f (m + b + 1) = _
    rw [partialSum_succ f hlt, ih hb, Fin.sum_univ_castSucc, add_assoc]
    rfl

/-- Once the bound has passed the last row, the partial sum is the whole sum. -/
theorem partialSum_of_le (f : Fin N → M) {m : ℕ} (h : N ≤ m) : partialSum f m = ∑ k, f k := by
  unfold partialSum
  rw [Finset.filter_true_of_mem (fun k _ => lt_of_lt_of_le k.isLt h)]

/-- The partial sum below `N` is the whole sum. -/
theorem partialSum_self (f : Fin N → M) : partialSum f N = ∑ k, f k := partialSum_of_le f le_rfl

/-! ## Blocks -/

variable {n b : ℕ}

/-- Row `r` of block `t` is a row: `b·t + r < b·(t+1) ≤ b·n = N`. -/
theorem block_lt (hN : n * b = N) {t r : ℕ} (ht : t < n) (hr : r < b) : b * t + r < N := by
  calc b * t + r < b * t + b := by omega
    _ = b * (t + 1) := by ring
    _ ≤ b * n := Nat.mul_le_mul_left b ht
    _ = N := by rw [Nat.mul_comm, hN]

/-- The first `t` blocks are rows: `b·t ≤ N` for `t ≤ n`. -/
theorem blocks_le (hN : n * b = N) {t : ℕ} (ht : t ≤ n) : b * t ≤ N := by
  calc b * t ≤ b * n := Nat.mul_le_mul_left b ht
    _ = N := by rw [Nat.mul_comm, hN]

/-- The sum of `f` over block `t`: the rows `b·t, …, b·t + b − 1`. -/
def blockSum (hN : n * b = N) (f : Fin N → M) (t : Fin n) : M :=
  ∑ r : Fin b, f ⟨b * t.val + r.val, block_lt hN t.isLt r.isLt⟩

/-- `blockSum` written out. -/
theorem blockSum_eq (hN : n * b = N) (f : Fin N → M) (t : Fin n) :
    blockSum hN f t = ∑ r : Fin b, f ⟨b * t.val + r.val, block_lt hN t.isLt r.isLt⟩ := rfl

/-- Passing from the first `t` blocks to the first `t + 1` adds block `t`'s sum. -/
theorem partialSum_block_succ (hN : n * b = N) (f : Fin N → M) (t : Fin n) :
    partialSum f (b * (t.val + 1)) = partialSum f (b * t.val) + blockSum hN f t := by
  have h : b * t.val + b ≤ N := by
    have := blocks_le hN (t := t.val + 1) t.isLt
    rwa [Nat.mul_succ] at this
  rw [show b * (t.val + 1) = b * t.val + b from Nat.mul_succ b t.val, partialSum_add f (b * t.val) b h]
  rfl

/-- The partial sum below the first `t` blocks is the sum of those blocks' sums. -/
theorem partialSum_blocks (hN : n * b = N) (f : Fin N → M) {t : ℕ} (ht : t ≤ n) :
    partialSum f (b * t) = ∑ s : Fin t, blockSum hN f ⟨s.val, lt_of_lt_of_le s.isLt ht⟩ := by
  induction t with
  | zero => rw [Nat.mul_zero, partialSum_zero, Fin.sum_univ_zero]
  | succ t ih =>
    have htn : t < n := ht
    rw [partialSum_block_succ hN f ⟨t, htn⟩, ih (Nat.le_of_lt htn), Fin.sum_univ_castSucc]
    rfl

/-- **The sum over all rows is the sum over the blocks of each block's sum.** -/
theorem sum_blocks (hN : n * b = N) (f : Fin N → M) : ∑ k, f k = ∑ t : Fin n, blockSum hN f t := by
  rw [← partialSum_of_le f (le_of_eq (by rw [Nat.mul_comm, hN] : N = b * n)), partialSum_blocks hN f le_rfl]

/-- The same with each block's sum written out:
    `Σ_k f k = Σ_{t < n} Σ_{r < b} f (b·t + r)`. -/
theorem sum_blocks' (hN : n * b = N) (f : Fin N → M) :
    ∑ k, f k = ∑ t : Fin n, ∑ r : Fin b, f ⟨b * t.val + r.val, block_lt hN t.isLt r.isLt⟩ :=
  sum_blocks hN f

/-! ## The running total, step by step -/

/-- The running total after `t` steps: zero at the start, and step `t` adds block `t`'s sum (a step past the last block
    adds nothing). -/
def blockAcc (hN : n * b = N) (f : Fin N → M) : ℕ → M
  | 0 => 0
  | t + 1 => blockAcc hN f t + (if h : t < n then blockSum hN f ⟨t, h⟩ else 0)

/-- Before the first step the running total is zero. -/
@[simp] theorem blockAcc_zero (hN : n * b = N) (f : Fin N → M) : blockAcc hN f 0 = 0 := rfl

/-- Step `t` adds block `t`'s sum. -/
theorem blockAcc_succ (hN : n * b = N) (f : Fin N → M) {t : ℕ} (h : t < n) :
    blockAcc hN f (t + 1) = blockAcc hN f t + blockSum hN f ⟨t, h⟩ := by
  show blockAcc hN f t + (if h : t < n then blockSum hN f ⟨t, h⟩ else 0) = _
  rw [dif_pos h]

/-- Step `t`, with the block's sum written out. -/
theorem blockAcc_succ' (hN : n * b = N) (f : Fin N → M) {t : ℕ} (h : t < n) :
    blockAcc hN f (t + 1)
      = blockAcc hN f t + ∑ r : Fin b, f ⟨b * t + r.val, block_lt hN h r.isLt⟩ :=
  blockAcc_succ hN f h

/-- After `t ≤ n` steps the running total is the partial sum over the rows below `b·t`. -/
theorem blockAcc_eq_partialSum (hN : n * b = N) (f : Fin N → M) {t : ℕ} (ht : t ≤ n) :
    blockAcc hN f t = partialSum f (b * t) := by
  induction t with
  | zero => rw [Nat.mul_zero, partialSum_zero, blockAcc_zero]
  | succ t ih =>
    have htn : t < n := ht
    rw [blockAcc_succ hN f htn, ih (Nat.le_of_lt htn), partialSum_block_succ hN f ⟨t, htn⟩]

/-- After `t ≤ n` steps the running total is the sum over the rows `k` with `k < b·t`, as a filtered sum. -/
theorem blockAcc_eq_filter (hN : n * b = N) (f : Fin N → M) {t : ℕ} (ht : t ≤ n) :
    blockAcc hN f t = ∑ k ∈ Finset.univ.filter (fun k : Fin N => k.val < b * t), f k :=
  blockAcc_eq_partialSum hN f ht

/-- **After the last step the running total is the sum over all rows.** -/
theorem blockAcc_last (hN : n * b = N) (f : Fin N → M) : blockAcc hN f n = ∑ k, f k := by
  rw [blockAcc_eq_partialSum hN f le_rfl]
  exact partialSum_of_le f (le_of_eq (by rw [Nat.mul_comm, hN]))

/-! ## 50000 rows in 25 blocks of 2000 -/

/-- `25 · 2000 = 50000`. -/
theorem rows_50000 : 25 * 2000 = 50000 := by norm_num

/-- Row `r` of block `t` among 50000 rows in 25 blocks of 2000. -/
theorem block_lt_50000 {t r : ℕ} (ht : t < 25) (hr : r < 2000) : 2000 * t + r < 50000 := by omega

/-- The sum over 50000 rows is the sum over the 25 blocks of the sums over each block's 2000 rows. -/
theorem sum_blocks_50000 (f : Fin 50000 → M) :
    ∑ k, f k = ∑ t : Fin 25, ∑ r : Fin 2000, f ⟨2000 * t.val + r.val, block_lt_50000 t.isLt r.isLt⟩ :=
  sum_blocks' rows_50000 f

/-- The running total over 50000 rows in 25 blocks of 2000. -/
def acc50000 (f : Fin 50000 → M) (t : ℕ) : M := blockAcc rows_50000 f t

/-- It starts at zero. -/
@[simp] theorem acc50000_zero (f : Fin 50000 → M) : acc50000 f 0 = 0 := rfl

/-- Step `t < 25` adds the sum over the rows `2000·t, …, 2000·t + 1999`. -/
theorem acc50000_succ (f : Fin 50000 → M) {t : ℕ} (h : t < 25) :
    acc50000 f (t + 1) = acc50000 f t + ∑ r : Fin 2000, f ⟨2000 * t + r.val, block_lt_50000 h r.isLt⟩ :=
  blockAcc_succ' rows_50000 f h

/-- After `t ≤ 25` steps it is the sum over the rows below `2000·t`. -/
theorem acc50000_eq_filter (f : Fin 50000 → M) {t : ℕ} (ht : t ≤ 25) :
    acc50000 f t = ∑ k ∈ Finset.univ.filter (fun k : Fin 50000 => k.val < 2000 * t), f k :=
  blockAcc_eq_filter rows_50000 f ht

/-- After the 25th step it is the sum over all 50000 rows. -/
theorem acc50000_last (f : Fin 50000 → M) : acc50000 f 25 = ∑ k, f k :=
  blockAcc_last rows_50000 f

/-- The extended reals are such a monoid: the statements above hold of sums of extended reals as they stand. -/
example (f : Fin 50000 → EReal) : acc50000 f 25 = ∑ k, f k := acc50000_last f

end Cert.LibBlockSum
-- ==== Proof.HalfSqDist.lean ====
/-
  Half the squared distance between two tables of 4 000 000 rows and 10 columns, as a number and as a running total.

  For tables `x`, `y` of extended reals write `sq x y i = (x i − y i)·(x i − y i)` at an entry `i`, and
  `rowSq x y k = Σ_c sq x y (k, c)` for row `k`.  The quantity of interest is `½ · Σ_i sq x y i`.

  The rows are cut into 400 consecutive blocks of 10 000.  A running total that starts at zero and adds, at step `t`,
  the sum of `rowSq` over block `t` holds after the last step the sum of `sq` over every entry (the block-sum
  lemma of the imported general file, together with the splitting of a sum over a two-coordinate index set into the
  double sum over rows and columns).  Addition of extended reals is commutative and associative whatever the values,
  and so is multiplication, so nothing here asks the entries to be finite: `½ · (0 + Σ)` and `(running total) · ½`
  are one number.
-/
import Idealize.ShloMosaic.PureOps.Ideal
import Idealize.ShloMosaic.PureOps.Ideal.Laws
import Idealize.ShloMosaic.Lib.ValueIdx
import proofs.«149610_j28741921145432_1_alg».proof.Proof.LibBlockSum

noncomputable section

open scoped BigOperators

namespace Cert.HalfSqDist

open Idealize.ShloMosaic Idealize.ShloMosaic.ValueIdx

/-- The tables' index set: 4 000 000 rows, 10 columns. -/
abbrev Table : Shape := ⟨2, ![4000000, 10]⟩

/-- The squared difference of the two tables at one entry. -/
def sq (x y : Table.Idx → EReal) (i : Table.Idx) : EReal := (x i - y i) * (x i - y i)

/-- Row `k`'s sum of squared differences over its ten columns. -/
def rowSq (x y : Table.Idx → EReal) (k : Fin 4000000) : EReal := ∑ c : Fin 10, sq x y (ix2 k c)

/-- 400 blocks of 10 000 rows are the 4 000 000 rows. -/
theorem rows : 400 * 10000 = 4000000 := by norm_num

/-- Row `r` of block `t` is a row of the table. -/
theorem row_lt {t r : ℕ} (ht : t < 400) (hr : r < 10000) : 10000 * t + r < 4000000 := by omega

/-- The running total after `t` blocks: zero, then each block's sum of its rows' sums. -/
def acc (x y : Table.Idx → EReal) (t : ℕ) : EReal := Cert.LibBlockSum.blockAcc rows (rowSq x y) t

/-- Before the first block the running total is zero. -/
theorem acc_zero (x y : Table.Idx → EReal) : acc x y 0 = 0 := rfl

/-- Block `t` adds the sum over its 10 000 rows of each row's sum. -/
theorem acc_succ (x y : Table.Idx → EReal) {t : ℕ} (h : t < 400) :
    acc x y (t + 1) = acc x y t + ∑ r : Fin 10000, rowSq x y ⟨10000 * t + r.val, row_lt h r.isLt⟩ :=
  Cert.LibBlockSum.blockAcc_succ' rows (rowSq x y) h

/-- After the 400th block the running total is the sum of the squared differences over every entry. -/
theorem acc_last (x y : Table.Idx → EReal) : acc x y 400 = ∑ i : Table.Idx, sq x y i := by
  unfold acc
  rw [Cert.LibBlockSum.blockAcc_last rows (rowSq x y), sum_idx2]
  rfl

/-- One half, as the single-precision word `0x3F000000` read as a number. -/
abbrev half : EReal := Ideal.ofBits .f32 0x3F000000#32

/-- Half the squared distance: the running total after the last block, times one half. -/
def loss (x y : Table.Idx → EReal) : EReal := acc x y 400 * half

/-- One half times (zero plus the sum over every entry) is the same number: a zero summand drops, and a product of
    extended reals does not depend on the order of its factors. -/
theorem half_mul_total (x y : Table.Idx → EReal) :
    half * ((0 : EReal) + ∑ i : Table.Idx, sq x y i) = loss x y := by
  unfold loss
  rw [zero_add, mul_comm, acc_last]

end Cert.HalfSqDist

end
-- ==== Proof.KernelRunning.lean ====
/-
  The accumulator after each grid point is the running total of the squared differences.

  Write `x`, `y` for the two tables as the kernel finds them.  Block `t` of a table, read at row `r` and column `k`, is
  the table at row `10000·t + r` and column `k`; so the block's sum of squared differences is the sum of `rowSq x y`
  over the rows of block `t`, which is exactly what step `t` adds to the running total `acc x y`.  By induction on the
  point: after point `n < 399` the accumulator's entry is `acc x y (n + 1)` (the first point contributes `0 +` its block,
  and `acc x y 0 = 0`); after the last point, 399, it is `acc x y 400 · ½`, the number `loss x y`.
-/
import proofs.«149610_j28741921145432_1_alg».proof.Proof.KernelPoint
import proofs.«149610_j28741921145432_1_alg».proof.Proof.HalfSqDist

set_option maxRecDepth 16384

noncomputable section

open scoped BigOperators
open Idealize.ShloMosaic Idealize.ShloMosaic.TcCoe Idealize.SL.Sem

namespace Cert.KernelIdeal.Running

open Cert.KernelIdeal Cert.KernelIdeal.Gen Cert.KernelIdeal.Point Idealize.ShloMosaic.ValueIdx Cert.HalfSqDist

variable (m : (ℓ : Loc nD τ sig) → Buf (Elt Ideal) ℓ)

/-- The first table as the kernel finds it, -/
abbrev xarr (c : Dev nD) : Vec Ideal S4000000x10 .f32 := V m c main_arg0
/-- the second, -/
abbrev yarr (c : Dev nD) : Vec Ideal S4000000x10 .f32 := V m c main_arg1
/-- the first table's block at point `t`, -/
abbrev xblk (c : Dev nD) (t : Fin cfg0.N) : Vec Ideal S10000x10 .f32 := iblk m c 0 t
/-- and the second's. -/
abbrev yblk (c : Dev nD) (t : Fin cfg0.N) : Vec Ideal S10000x10 .f32 := iblk m c 1 t

/-- There are 400 points. -/
theorem point_lt (t : Fin cfg0.N) : t.val < 400 := lt_of_lt_of_eq t.isLt (show cfg0.N = 400 from N_0)

/-- Point `t`'s block of either table is block `(t, 0)`. -/
theorem block_index : ∀ t : Fin cfg0.N, win0_0.index t 0 = t.val ∧ win0_0.index t 1 = 0
    ∧ win0_1.index t 0 = t.val ∧ win0_1.index t 1 = 0 :=
  (by decide +kernel : ∀ t : Fin grid0.N, win0_0.index t 0 = t.val ∧ win0_0.index t 1 = 0
    ∧ win0_1.index t 0 = t.val ∧ win0_1.index t 1 = 0)

/-- Block `t` of the first table at `(r, k)` is the table at `(10000·t + r, k)`. -/
theorem xblk_apply (c : Dev nD) (t : Fin cfg0.N) (r : Fin 10000) (k : Fin 10) :
    xblk m c t (ix2 r k) = xarr m c (ix2 ⟨10000 * t.val + r.val, row_lt (point_lt t) r.isLt⟩ k) := by
  show iblk m c 0 t (ix2 r k) = V m c main_arg0 _
  unfold iblk
  rw [View.read_apply]
  show V m c main_arg0 _ = V m c main_arg0 _
  congr 1
  funext a
  apply Fin.ext
  match a with
  | ⟨0, _⟩ =>
    show win0_0.index t 0 * 10000 + 1 * r.val = 10000 * t.val + r.val
    rw [(block_index t).1]; omega
  | ⟨1, _⟩ =>
    show win0_0.index t 1 * 10 + 1 * k.val = k.val
    rw [(block_index t).2.1]; omega

/-- Block `t` of the second table at `(r, k)` is the table at `(10000·t + r, k)`. -/
theorem yblk_apply (c : Dev nD) (t : Fin cfg0.N) (r : Fin 10000) (k : Fin 10) :
    yblk m c t (ix2 r k) = yarr m c (ix2 ⟨10000 * t.val + r.val, row_lt (point_lt t) r.isLt⟩ k) := by
  show iblk m c 1 t (ix2 r k) = V m c main_arg1 _
  unfold iblk
  rw [View.read_apply]
  show V m c main_arg1 _ = V m c main_arg1 _
  congr 1
  funext a
  apply Fin.ext
  match a with
  | ⟨0, _⟩ =>
    show win0_1.index t 0 * 10000 + 1 * r.val = 10000 * t.val + r.val
    rw [(block_index t).2.2.1]; omega
  | ⟨1, _⟩ =>
    show win0_1.index t 1 * 10 + 1 * k.val = k.val
    rw [(block_index t).2.2.2]; omega

/-- Point `t`'s sum of squared differences is the sum of the rows' sums over the rows of block `t`. -/
theorem blockSq_rows (c : Dev nD) (t : Fin cfg0.N) :
    blockSq (xblk m c t) (yblk m c t)
      = ∑ r : Fin 10000, rowSq (xarr m c) (yarr m c) ⟨10000 * t.val + r.val, row_lt (point_lt t) r.isLt⟩ := by
  unfold blockSq rowSq Cert.HalfSqDist.sq
  refine Finset.sum_congr rfl fun r _ => Finset.sum_congr rfl fun k _ => ?_
  rw [xblk_apply, yblk_apply]

/-- So point `t` takes the running total from `t` blocks to `t + 1`. -/
theorem acc_step (c : Dev nD) (t : Fin cfg0.N) :
    acc (xarr m c) (yarr m c) t.val + blockSq (xblk m c t) (yblk m c t) = acc (xarr m c) (yarr m c) (t.val + 1) := by
  rw [acc_succ _ _ (point_lt t), blockSq_rows]

/-- After a point `n` before the last, the accumulator's entry is the running total over `n + 1` blocks. -/
theorem before_last (c : Dev nD) : ∀ (n : ℕ) (h : n < cfg0.N), n < 399 →
    outsAt0 m c n h = fun _ => acc (xarr m c) (yarr m c) (n + 1)
  | 0, h, _ => by
    refine (outsAt0_A m c ⟨0, h⟩ rfl (by dsimp only; omega)).trans ?_
    refine (first_value c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) _ _ (xblk m c ⟨0, h⟩) (yblk m c ⟨0, h⟩)).trans ?_
    funext _
    rw [← acc_zero (xarr m c) (yarr m c)]
    exact acc_step m c ⟨0, h⟩
  | n + 1, h, hlt => by
    have h0 : ¬(⟨n + 1, h⟩ : Fin cfg0.N).val % 400 = 0 := by dsimp only; omega
    have h1 : ¬(⟨n + 1, h⟩ : Fin cfg0.N).val % 400 = 399 := by dsimp only; omega
    refine (outsAt0_B m c ⟨n + 1, h⟩ h0 h1).trans ?_
    refine (middle_value c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) _ _ (xblk m c ⟨n + 1, h⟩) (yblk m c ⟨n + 1, h⟩)
      (outsAt0 m c n (Nat.lt_of_succ_lt h))).trans ?_
    funext j
    show outsAt0 m c n (Nat.lt_of_succ_lt h) j + _ = _
    rw [before_last c n (Nat.lt_of_succ_lt h) (by omega)]
    exact acc_step m c ⟨n + 1, h⟩

/-- After the last point the accumulator's entry is half the squared distance. -/
theorem at_last (c : Dev nD) (h : 399 < cfg0.N) :
    outsAt0 m c 399 h = fun _ => loss (xarr m c) (yarr m c) := by
  have h0 : ¬(⟨399, h⟩ : Fin cfg0.N).val % 400 = 0 := by dsimp only; omega
  have h1 : (⟨399, h⟩ : Fin cfg0.N).val % 400 = 399 := by dsimp only
  refine (outsAt0_C m c ⟨399, h⟩ h0 h1).trans ?_
  refine (last_value c (grid0.coords ⟨399, h⟩) (ms0_0 ⟨399, h⟩) (hs0_0 ⟨399, h⟩) (ms0_1 ⟨399, h⟩)
    (hs0_1 ⟨399, h⟩) (ms0_2 ⟨399, h⟩) (hs0_2 ⟨399, h⟩) _ _ (xblk m c ⟨399, h⟩) (yblk m c ⟨399, h⟩)
    (outsAt0 m c 398 (Nat.lt_of_succ_lt h))).trans ?_
  funext j
  show (outsAt0 m c 398 (Nat.lt_of_succ_lt h) j + _) * _ = _
  rw [before_last m c 398 (Nat.lt_of_succ_lt h) (by decide)]
  unfold loss
  exact congrArg (· * half) (acc_step m c ⟨399, h⟩)

end Cert.KernelIdeal.Running

end
-- ==== Proof.KernelResult.lean ====
/-
  The kernel's result is half the squared distance.

  The accumulator is written back to its one-entry array once, after the last grid point, and its one block is the whole
  array; so after the run the array's entry is what the last point left, `loss x y`.  The program then presents the
  one-by-one array as a one-element vector, which has that same number at its one index.
-/
import proofs.«149610_j28741921145432_1_alg».proof.Proof.KernelRunning

set_option maxRecDepth 16384

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Running Idealize.ShloMosaic.ValueIdx Cert.HalfSqDist

variable (m : (ℓ : Loc nD τ sig) → Buf (Elt Ideal) ℓ) (ρ : Dev nD → PrngReg)

/-- The last point. -/
abbrev lastPoint : Fin cfg0.N := ⟨399, by rw [show cfg0.N = 400 from N_0]; decide⟩

/-- The one-by-one array holding half the squared distance. -/
abbrev lossArray (c : Dev nD) : Buf (Elt Ideal) ((c : Thread nD τ).loc main_v0) :=
  fun _ => loss (xarr m c) (yarr m c)

/-- The one write-back, after the last point, writes half the squared distance. -/
theorem flushed_eq (c : Dev nD) (t : Fin cfg0.N) (hf : (cfg0.win 2).flush t = true) :
    (dats m 0 c).flushed 2 t = ((cfg0.win 2).blk t).view.read (Elt Ideal) (lossArray m c) := by
  have h399 : t.val = 399 := by have := (flush0_2 t).mp hf; have := point_lt t; omega
  obtain rfl : t = lastPoint := Fin.ext h399
  show (cfg0.win 2).cut (grid0.coords lastPoint) ((dats m 0 c).after 2 lastPoint) = _
  rw [after0_2, at_last]
  rfl

/-- So the one-by-one array ends holding half the squared distance: the last point's block is the whole array. -/
theorem final_eq (c : Dev nD) : (dats m 0 c).arrAt 2 cfg0.N = lossArray m c :=
  (dats m 0 c).arrAt_eq_of_cover 2 (lossArray m c) (flushed_eq m c) fun i =>
    ⟨lastPoint, (flush0_2 lastPoint).mpr rfl, by
      show i ∈ ((View.whole main_v0).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPoint 0 * win0_2.size 0 ≤ (i 0 : Nat)
          ∧ (i 0 : Nat) < win0_2.index lastPoint 0 * win0_2.size 0 + win0_2.xsize (grid0.coords lastPoint) 0
        rw [show win0_2.index lastPoint 0 * win0_2.size 0 = 0 from by decide +kernel,
          show win0_2.xsize (grid0.coords lastPoint) 0 = 1 from by decide +kernel]
        omega
      | ⟨1, _⟩ =>
        show win0_2.index lastPoint 1 * win0_2.size 1 ≤ (i 1 : Nat)
          ∧ (i 1 : Nat) < win0_2.index lastPoint 1 * win0_2.size 1 + win0_2.xsize (grid0.coords lastPoint) 1
        rw [show win0_2.index lastPoint 1 * win0_2.size 1 = 0 from by decide +kernel,
          show win0_2.xsize (grid0.coords lastPoint) 1 = 1 from by decide +kernel]
        omega⟩

/-- The one-element vector the program returns holds half the squared distance. -/
theorem result_eq (c : Dev nD) :
    Pipeline.afterTail₀ cfgs (dats m) 0 (V0 m) [hostOps1] c main_v1 = fun _ => loss (xarr m c) (yarr m c) := by
  unfold Pipeline.afterTail₀
  show StableHlo.after hostOps1 _ (Proc.devRef .tc main_v1) = _
  after_results
  have hw : Pipeline.withArrays (cfgs 0).spec c (V0 m c) (fun w => (dats m 0 c).arrAt w (cfgs 0).N)
      (Proc.tc.devRef main_v0) = lossArray m c :=
    (Pipeline.withArrays_arr spec0 launch0.win.arr_inj c _ _ 2).trans (final_eq m c)
  rw [hw]
  rfl

/-- The run, read: every weakly fair execution of the program ends with the returned vector at half the squared distance
    of the two tables, and the tables as they were. -/
theorem run : θ_run defs (onTc (τ := τ) (main (F := Ideal))) ⟨m, fun _ => 0, ρ⟩ fun r => ∀ c : Dev nD,
      r.2.mem ((c.tc : Thread nD τ).loc main_v1)
        = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 rfl (fun w => by fin_cases w <;> decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefLoss.lean ====
/-
  The reference's result is half the squared distance.

  The reference subtracts the two tables entry by entry, squares, sums every entry starting from zero, multiplies by
  one half, and presents the number as a one-element vector.  Over the extended reals the sum from zero over every entry
  is `0 + Σ_i (x i − y i)·(x i − y i)`, and the product with one half on the left is the product on the right; that is
  the number `Cert.HalfSqDist.loss x y`, whichever of the vector's indices (there is one) it is read at.
-/
import proofs.«149610_j28741921145432_1_alg».proof.Proof.Gen.ReferenceIdeal.Read
import proofs.«149610_j28741921145432_1_alg».proof.Proof.HalfSqDist
import Idealize.ShloMosaic.Lib.ValueIdx
import Idealize.ShloMosaic.Lib.Pipeline.Value
import Idealize.ShloMosaic.PureOps.Ideal.Laws

noncomputable section

open scoped BigOperators

namespace Cert.ReferenceIdeal.Loss

open Cert.ReferenceIdeal Cert.ReferenceIdeal.Gen Cert.ReferenceIdeal.Read
open Idealize.ShloMosaic Idealize.ShloMosaic.ValueIdx Cert.HalfSqDist

/-- The squared difference the reference forms at an entry is `sq` there. -/
theorem squares_apply (x y : Table.Idx → EReal) (i : Table.Idx) :
    val_main_v1 (F := Ideal) x y i = sq x y i := rfl

/-- The number the reference computes, before it is presented as a vector: one half times the sum from zero. -/
theorem scalar_apply (x y : Table.Idx → EReal) (i : S_.Idx) :
    val_main_v3 (F := Ideal) x y i = loss x y := by
  rw [val_main_v3_apply, val_main_cst_0_apply, val_main_v2_apply, val_main_cst_apply]
  simp only [Ideal.mulf_def, Ideal.ofBits_def, Ideal.ofBits_zero_f32, squares_apply]
  exact half_mul_total x y

/-- An index set with one element has only the index `0`. -/
theorem only_index (n : ℕ) (hn : n = 1) (a : Fin n) : a.val = 0 := by
  subst hn
  exact Fin.val_eq_zero a

/-- The reference's result vector holds half the squared distance at its one index. -/
theorem result_apply (x y : Table.Idx → EReal) (j : S1.Idx) :
    val_main_v4 (F := Ideal) x y j = loss x y := by
  unfold val_main_v4
  refine (shapeCast_apply _ _ j ix0 ?_).trans (scalar_apply x y ix0)
  rw [Shape.rowMajor_val_one]
  exact (only_index _ (by decide) (S_.rowMajor ix0)).trans (only_index _ (by decide) (j 0)).symm

end Cert.ReferenceIdeal.Loss

end
-- ==== Proof.lean ====
/-
  Half the squared distance of two tables, accumulated block by block, against the same quantity summed at once.

  Both programs take two tables `x`, `y` of 4 000 000 rows and 10 columns.  The reference forms
  `½ · (0 + Σ_i (x i − y i)·(x i − y i))` over every entry.  The kernel walks the rows in 400 blocks of 10 000: an
  accumulator is set to zero at the first block, each block adds the sum of its rows' sums of squared differences, and
  after the last block the accumulator is multiplied by one half.  Over the extended reals the accumulator after the last
  block is the sum over every entry (sums regroup freely, whatever the values), and `½ · s = s · ½`; so both results
  are the one number `Cert.HalfSqDist.loss x y`, presented as a one-element vector.  Finiteness of the inputs is not
  used.

  The pieces: Proof/HalfSqDist.lean (the quantity and its running total), Proof/KernelPoint.lean (what one grid point
  leaves in the accumulator), Proof/KernelRunning.lean (the accumulator after each point is the running total),
  Proof/KernelResult.lean (the kernel's returned vector), Proof/RefLoss.lean (the reference's returned vector).
  Each program runs to completion leaving its arguments unchanged; the idealized kernel is the kernel's own text read
  over the extended reals, so there is nothing to preserve beyond that.
-/
import proofs.«149610_j28741921145432_1_alg».proof.Defs
import proofs.«149610_j28741921145432_1_alg».proof.Proof.Gen.Kernel
import proofs.«149610_j28741921145432_1_alg».proof.Proof.Gen.Kernel.Frame
import proofs.«149610_j28741921145432_1_alg».proof.Proof.Gen.KernelIdeal
import proofs.«149610_j28741921145432_1_alg».proof.Proof.Gen.KernelIdeal.Frame
import proofs.«149610_j28741921145432_1_alg».proof.Proof.Gen.ReferenceIdeal
import proofs.«149610_j28741921145432_1_alg».proof.Proof.Gen.ReferenceIdeal.Run
import proofs.«149610_j28741921145432_1_alg».proof.Proof.Gen.ReferenceIdeal.Read
import proofs.«149610_j28741921145432_1_alg».proof.Proof.Gen.Pre_finite_inputs
import proofs.«149610_j28741921145432_1_alg».proof.Proof.KernelResult
import proofs.«149610_j28741921145432_1_alg».proof.Proof.RefLoss
import Idealize.ShloMosaic.Adequacy
import Idealize.ShloMosaic.Init

noncomputable section

namespace Cert.Proof

open Idealize.ShloMosaic Idealize.SL.Sem

/-- The kernel, word by word, runs to completion and leaves the two tables unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs to completion and leaves the two tables unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- From tables that agree, the kernel's returned vector and the reference's both hold half the squared distance. -/
theorem algebraic : Cert.algebraic_KernelIdeal_ReferenceIdeal := by
  intro m ρ m' ρ' _ hagree
  refine ⟨fun c _ => Cert.HalfSqDist.loss
      (m (((c.tc : Thread Cert.KernelIdeal.nD Cert.KernelIdeal.τ)).loc Cert.KernelIdeal.main_arg0))
      (m (((c.tc : Thread Cert.KernelIdeal.nD Cert.KernelIdeal.τ)).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, (hagree c).1, (hagree c).2]
  funext j
  exact Cert.ReferenceIdeal.Loss.result_apply _ _ j

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
